-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S1024x768 : Shape := ⟨2, ![1024, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S1024x768 : S_.BroadcastsInDim S1024x768 (![] : Fin 0 → Fin S1024x768.rank)
  reducesTo_S1024x768_S_d0_1 : S1024x768.ReducesTo [0, 1] S_

variable [Facts]

def fn {F : FTy → Type} [FloatOps F] (main_arg0 : FVec F S8x2048x768 .f32) (main_arg1 : FVec F S1024x768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  main_v8
-- ==== Kernel.lean ====
abbrev S8x2048x768 : Shape := ⟨3, ![8, 2048, 768]⟩
abbrev S1024x768 : Shape := ⟨2, ![1024, 768]⟩
abbrev S16384x768 : Shape := ⟨2, ![16384, 768]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S768x1024 : Shape := ⟨2, ![768, 1024]⟩
abbrev S16384x1024 : Shape := ⟨2, ![16384, 1024]⟩
abbrev S1024x1 : Shape := ⟨2, ![1024, 1]⟩
abbrev S1024x1024 : Shape := ⟨2, ![1024, 1024]⟩
abbrev S8x2048x1024 : Shape := ⟨3, ![8, 2048, 1024]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x768, .f32⟩
  | .hbm, ⟨1, _⟩ => ⟨S1024x768, .f32⟩
  | .hbm, ⟨2, _⟩ => ⟨S16384x768, .f32⟩
  | .hbm, ⟨3, _⟩ => ⟨S16384x768, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x768, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S768x1024, .f32⟩
  | .hbm, ⟨12, _⟩ => ⟨S16384x1024, .f32⟩
  | .hbm, ⟨13, _⟩ => ⟨S8x2048x1024, .f32⟩
  | .local _ .vmem, ⟨0, _⟩ => ⟨S1024x768, .f32⟩
  | .local _ .vmem, ⟨1, _⟩ => ⟨S1024x768, .f32⟩
  | .local _ .vmem, ⟨2, _⟩ => ⟨S768x1024, .f32⟩
  | .local _ .vmem, ⟨3, _⟩ => ⟨S1024x1, .f32⟩
  | .local _ .vmem, ⟨4, _⟩ => ⟨S1024x1, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x2048x768_S16384x768 : S8x2048x768.ShapeCasts S16384x768
  reducesTo_S16384x768_S16384_d1 : S16384x768.ReducesTo [1] S16384
  h_S_ : 0 < S_.numel
  bcast_S16384_S16384x1_0 : S16384.BroadcastsInDim S16384x1 (![0] : Fin 1 → Fin S16384x1.rank)
  reducesTo_S1024x768_S1024_d1 : S1024x768.ReducesTo [1] S1024
  bcast_S1024_S1x1024_1 : S1024.BroadcastsInDim S1x1024 (![1] : Fin 1 → Fin S1x1024.rank)
  transposes_S1024x768_S768x1024_1_0 : S1024x768.Transposes [1, 0] S768x1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S16384x1024_S8x2048x1024 : S16384x1024.ShapeCasts S8x2048x1024
  dot_S1024x768_S768x1024_S1024x1024_1_0_0_1_n_n_wf : DotDims.WF S1024x768 S768x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1024.size a ≤ S768x1024.size a
  hwx0_1 : ∀ i : grid0.Coords, EltTy.bits .f32 = 32 ∨ (Rect.block (s := S768x1024) S768x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S768x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S1024x768 : Shape := ⟨2, ![1024, 768]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S8x2048x1024 : Shape := ⟨3, ![8, 2048, 1024]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S1024x768, .f32⟩
  | .hbm, ⟨2, _⟩ => ⟨S8x2048x768, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S1024x768, .f32⟩
  | .hbm, ⟨7, _⟩ => ⟨S_, .f32⟩
  | .hbm, ⟨8, _⟩ => ⟨S1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x768_S8x2048_d2 : S8x2048x768.ReducesTo [2] S8x2048
  h_S_ : 0 < S_.numel
  bcast_S8x2048_S8x2048x1_0_1 : S8x2048.BroadcastsInDim S8x2048x1 (![0, 1] : Fin 2 → Fin S8x2048x1.rank)
  reducesTo_S1024x768_S1024_d1 : S1024x768.ReducesTo [1] S1024
  bcast_S1024_S1x1x1024_2 : S1024.BroadcastsInDim S1x1x1024 (![2] : Fin 1 → Fin S1x1x1024.rank)
  bcast_S8x2048x1_S8x2048x1024_0_1_2 : S8x2048x1.BroadcastsInDim S8x2048x1024 (![0, 1, 2] : Fin 3 → Fin S8x2048x1024.rank)
  bcast_S1x1x1024_S8x2048x1024_0_1_2 : S1x1x1024.BroadcastsInDim S8x2048x1024 (![0, 1, 2] : Fin 3 → Fin S8x2048x1024.rank)
  bcast_S_S8x2048x1024 : S_.BroadcastsInDim S8x2048x1024 (![] : Fin 0 → Fin S8x2048x1024.rank)
  dot_S8x2048x768_S1024x768_S8x2048x1024_2_1_01_0_n_n_wf : DotDims.WF S8x2048x768 S1024x768 S8x2048x1024 [2] [1] [0, 1] [0] [] []

variable [Facts₀]

def dot_S8x2048x768_S1024x768_S8x2048x1024_2_1_01_0_n_n : DotDims S8x2048x768 S1024x768 S8x2048x1024 where
  lhsContracting := [2]
  rhsContracting := [1]
  lhsNonContracting := [0, 1]
  rhsNonContracting := [0]
  lhsBatch := []
  rhsBatch := []
  wf := dot_S8x2048x768_S1024x768_S8x2048x1024_2_1_01_0_n_n_wf

class Facts : Prop extends Facts₀ where

variable [Facts]
-- ==== Proof.Spec.lean ====
/-
  Squared distances to a codebook, as one function of the two argument arrays.

  For a batch x of shape [8, 2048, 768] and a codebook w of shape [1024, 768], the result at (b, t, p) is

      (z + Σ_k x(b,t,k)²) + (z + Σ_k w(p,k)²)  −  c · Σ_k x(b,t,k) · w(p,k)

  on the extended reals, where z is the value of the word of +0.0 (the initial value of each row sum) and c the value of the
  word of 2.0; neither word is ever evaluated, since both programs carry the same words. The same expression over the
  batch flattened to [16384, 768] (row r = b · 2048 + t) is what the kernel's region writes; the two agree because a
  reshape keeps the row-major position, which is what the two reshape lemmas below say at an entry.
  Also here: a one-column matrix [R, 1] spread across C columns, read at an entry.
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.SqDist

/-- The value of the word of +0.0: the initial value of every row sum. -/
abbrev zeroW : Ideal .f32 := Ideal.ofBits .f32 0x00000000#32
/-- The value of the word of 2.0: the factor of the cross term. -/
abbrev twoW : Ideal .f32 := Ideal.ofBits .f32 0x40000000#32

/-- Row r = b · 2048 + t of the flattened batch. -/
abbrev row (b : Fin 8) (t : Fin 2048) : Fin 16384 := ⟨b.val * 2048 + t.val, by have := b.isLt; have := t.isLt; omega⟩

/-- The squared distance from row (b, t) of the batch to codebook row p. -/
def cube (x : FVec Ideal ⟨3, ![8, 2048, 768]⟩ .f32) (w : FVec Ideal ⟨2, ![1024, 768]⟩ .f32) (b : Fin 8) (t : Fin 2048) (p : Fin 1024) :
    Ideal .f32 :=
  ((zeroW + ∑ k : Fin 768, x (ix3 b t k) * x (ix3 b t k)) + (zeroW + ∑ k : Fin 768, w (ix2 p k) * w (ix2 p k)))
    - twoW * ∑ k : Fin 768, x (ix3 b t k) * w (ix2 p k)

/-- The same over the flattened batch: from row r to codebook row p. -/
def flat (X : FVec Ideal ⟨2, ![16384, 768]⟩ .f32) (w : FVec Ideal ⟨2, ![1024, 768]⟩ .f32) (r : Fin 16384) (p : Fin 1024) :
    Ideal .f32 :=
  ((zeroW + ∑ k : Fin 768, X (ix2 r k) * X (ix2 r k)) + (zeroW + ∑ k : Fin 768, w (ix2 p k) * w (ix2 p k)))
    - twoW * ∑ k : Fin 768, X (ix2 r k) * w (ix2 p k)

/-- The whole result array. -/
def dist (x : FVec Ideal ⟨3, ![8, 2048, 768]⟩ .f32) (w : FVec Ideal ⟨2, ![1024, 768]⟩ .f32) :
    FVec Ideal ⟨3, ![8, 2048, 1024]⟩ .f32 := fun i => cube x w (i 0) (i 1) (i 2)

theorem dist_apply (x : FVec Ideal ⟨3, ![8, 2048, 768]⟩ .f32) (w : FVec Ideal ⟨2, ![1024, 768]⟩ .f32) (b : Fin 8) (t : Fin 2048)
    (p : Fin 1024) : dist x w (ix3 b t p) = cube x w b t p := rfl

/-- The batch flattened to rows: entry (b · 2048 + t, k) is entry (b, t, k). -/
theorem flatten_apply {α : Type} {C : Nat} (x : (⟨3, ![8, 2048, C]⟩ : Shape).Idx → α)
    (h : (⟨3, ![8, 2048, C]⟩ : Shape).ShapeCasts ⟨2, ![16384, C]⟩) (b : Fin 8) (t : Fin 2048) (k : Fin C) :
    shapeCast ⟨2, ![16384, C]⟩ x h (ix2 (row b t) k) = x (ix3 b t k) :=
  shapeCast_apply x h _ _ (by
    rw [Shape.rowMajor_val_three, Shape.rowMajor_val_two]
    rfl)

/-- Rows folded back into the batch: entry (b, t, p) is entry (b · 2048 + t, p). -/
theorem unflatten_apply {α : Type} {C : Nat} (y : (⟨2, ![16384, C]⟩ : Shape).Idx → α)
    (h : (⟨2, ![16384, C]⟩ : Shape).ShapeCasts ⟨3, ![8, 2048, C]⟩) (b : Fin 8) (t : Fin 2048) (p : Fin C) :
    shapeCast ⟨3, ![8, 2048, C]⟩ y h (ix3 b t p) = y (ix2 (row b t) p) :=
  shapeCast_apply y h _ _ (by
    rw [Shape.rowMajor_val_three, Shape.rowMajor_val_two]
    rfl)

/-- Over the flattened batch the distance from row b · 2048 + t is the distance from row (b, t). -/
theorem flat_flatten (x : FVec Ideal ⟨3, ![8, 2048, 768]⟩ .f32) (w : FVec Ideal ⟨2, ![1024, 768]⟩ .f32)
    (h : (⟨3, ![8, 2048, 768]⟩ : Shape).ShapeCasts ⟨2, ![16384, 768]⟩) (b : Fin 8) (t : Fin 2048) (p : Fin 1024) :
    flat (shapeCast ⟨2, ![16384, 768]⟩ x h) w (row b t) p = cube x w b t p := by
  unfold flat cube
  simp only [flatten_apply]

/-- A one-column matrix spread across the columns, at entry (p, q): the column's entry (p, 0). -/
theorem colSpread_apply {α : Type} {R C : Nat} (x : (⟨2, ![R, 1]⟩ : Shape).Idx → α)
    (h : (⟨2, ![R, 1]⟩ : Shape).Broadcasts ⟨2, ![R, C]⟩) (p : Fin R) (q : Fin C) :
    broadcastTo ⟨2, ![R, C]⟩ x h (ix2 p q) = x (ix2 p (0 : Fin 1)) := by
  refine broadcastTo_apply x h (ix2 p q) (ix2 p (0 : Fin 1)) fun a => ?_
  match a with
  | ⟨0, _⟩ =>
    show p.val = if R = 1 then 0 else p.val
    split
    · have := p.isLt; omega
    · rfl
  | ⟨1, _⟩ => rfl

end Cert.SqDist

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.KernelEntry.lean ====
/-
  The kernel body's stored value at one entry.

  At a grid point the body loads a [1024, 768] block of the flattened batch, the whole transposed codebook [768, 1024],
  a [1024, 1] column of batch row sums and the [1, 1024] row of codebook row sums, and stores
  (column spread across + row spread down) − 2.0 · (block × transposed codebook), the product accumulated into the zero
  matrix. At the ideal values the narrowing of the product's operands is the identity, so entry (p, q) of the stored block is
  (col(p, 0) + row(0, q)) − c · Σ_k block(p, k) · codeT(k, q).
-/
import proofs.«156373_j47107201302557_1_alg».proof.Proof.Gen.KernelIdeal.Skeleton
import proofs.«156373_j47107201302557_1_alg».proof.Proof.Spec
import proofs.«156373_j47107201302557_1_alg».proof.Proof.LibPlainMatmul

noncomputable section

open scoped BigOperators
open Idealize.ShloMosaic Idealize.ShloMosaic.ValueIdx

namespace Cert.KernelIdeal.Distance

open Cert.KernelIdeal Cert.KernelIdeal.Gen Cert.SqDist

/-- Entry (p, q) of the block the body stores, from the four loaded blocks. -/
theorem stored_apply (blk : Vec Ideal S1024x768 .f32) (codeT : Vec Ideal S768x1024 .f32) (col : Vec Ideal S1024x1 .f32)
    (rw_ : Vec Ideal S1x1024 .f32) (p : Fin 1024) (q : Fin 1024) :
    k0_pay1 (F := Ideal) blk codeT col rw_ (ix2 p q)
      = (col (ix2 p (0 : Fin 1)) + rw_ (ix2 (0 : Fin 1) q)) - twoW * ∑ k : Fin 768, blk (ix2 p k) * codeT (ix2 k q) := by
  unfold k0_pay1
  have hprod := Cert.Lib.PlainMatmul.apply (M := 1024) (K := 768) (N := 1024)
    dot_S1024x768_S768x1024_S1024x1024_1_0_0_1_n_n rfl rfl rfl rfl rfl rfl none
    (truncf .bf16 (shapeCast S1024x768 blk shapeCasts_S1024x768_S1024x768) bitsLt_bf16_f32)
    (truncf .bf16 (shapeCast S768x1024 codeT shapeCasts_S768x1024_S768x1024) bitsLt_bf16_f32) p q
  rw [subf_apply, addf_apply, mulf_apply, broadcast_apply, colSpread_apply, Cert.Lib.PlainMatmul.rowSpread_apply]
  unfold Idealize.ShloMosaic.matmul
  rw [hprod]
  simp only [shapeCast_self, truncf_apply]
  rfl

end Cert.KernelIdeal.Distance

end
-- ==== Proof.KernelBlocks.lean ====
/-
  The array the kernel's region writes, as one function of the four arrays it reads.

  The grid has 16 points. At point t the region reads rows t·1024 … t·1024+1023 of the flattened batch and of the column
  of batch row sums, the whole transposed codebook and the whole row of codebook row sums, and writes rows
  t·1024 … t·1024+1023 of the result. So what point t writes back is the restriction to its row band of

      R(r, q) = (col(r, 0) + row(0, q)) − c · Σ_k X(r, k) · codeT(k, q),

  and since the 16 row bands tile the 16384 rows (row r lies in band r / 1024), the whole array ends holding R.
-/
import proofs.«156373_j47107201302557_1_alg».proof.Proof.Gen.KernelIdeal.Frame
import proofs.«156373_j47107201302557_1_alg».proof.Proof.KernelEntry
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Distance

open Cert.KernelIdeal Cert.KernelIdeal.Gen Cert.SqDist

/-- The region's result from the flattened batch X, the transposed codebook, the column of batch row sums and the row of
    codebook row sums. -/
def regionSpec (X : FVec Ideal S16384x768 .f32) (codeT : FVec Ideal S768x1024 .f32) (col : FVec Ideal S16384x1 .f32)
    (rw_ : FVec Ideal S1x1024 .f32) : FVec Ideal S16384x1024 .f32 :=
  fun i => (col (ix2 (i 0) (0 : Fin 1)) + rw_ (ix2 (0 : Fin 1) (i 1))) - twoW * ∑ k : Fin 768, X (ix2 (i 0) k) * codeT (ix2 k (i 1))

theorem regionSpec_apply (X : FVec Ideal S16384x768 .f32) (codeT : FVec Ideal S768x1024 .f32) (col : FVec Ideal S16384x1 .f32)
    (rw_ : FVec Ideal S1x1024 .f32) (r : Fin 16384) (q : Fin 1024) :
    regionSpec X codeT col rw_ (ix2 r q)
      = (col (ix2 r (0 : Fin 1)) + rw_ (ix2 (0 : Fin 1) q)) - twoW * ∑ k : Fin 768, X (ix2 r k) * codeT (ix2 k q) := rfl

variable (m : (ℓ : Loc nD τ sig) → Buf (Elt Ideal) ℓ)

/-! ## The arrays the region finds, and their blocks at a point, at their literal types -/

abbrev rowsArr (c : Dev nD) : FVec Ideal S16384x768 .f32 := V m c main_v0
abbrev codeTArr (c : Dev nD) : FVec Ideal S768x1024 .f32 := V m c main_v7
abbrev colArr (c : Dev nD) : FVec Ideal S16384x1 .f32 := V m c main_v3
abbrev rowArr (c : Dev nD) : FVec Ideal S1x1024 .f32 := V m c main_v6

abbrev rowsBlk (c : Dev nD) (t : Fin cfg0.N) : Vec Ideal S1024x768 .f32 := iblk m c 0 t
abbrev codeTBlk (c : Dev nD) (t : Fin cfg0.N) : Vec Ideal S768x1024 .f32 := iblk m c 1 t
abbrev colBlk (c : Dev nD) (t : Fin cfg0.N) : Vec Ideal S1024x1 .f32 := iblk m c 2 t
abbrev rowBlk (c : Dev nD) (t : Fin cfg0.N) : Vec Ideal S1x1024 .f32 := iblk m c 3 t

theorem origin : (![0, 0] : Fin 2 → Nat) = fun _ => 0 := funext fun a => by fin_cases a <;> rfl

/-- The block indices at a point, decided over the grid: the batch, the column of row sums and the result move down one
    band per point; the transposed codebook and the row of codebook sums stay. -/
theorem band_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 16 := lt_of_lt_of_eq t.isLt N_0

/-- Row p of the band of point t. -/
abbrev bandRow (t : Fin cfg0.N) (p : Fin 1024) : Fin 16384 :=
  ⟨t.val * 1024 + p.val, by have := point_lt t; have := p.isLt; omega⟩

/-! ## Each block read where its band says -/

theorem read_rows (c : Dev nD) (t : Fin cfg0.N) (p : Fin 1024) (k : Fin 768) :
    rowsBlk m c t (ix2 p k) = rowsArr m c (ix2 (bandRow t p) k) := by
  obtain ⟨e0, e1, -⟩ := band_facts t
  show V m c main_v0 (((cfg0.win 0).blk t).view.emb (ix2 p k)) = V m c main_v0 (ix2 (bandRow t p) k)
  refine congrArg (V m c main_v0) (funext fun a => Fin.ext ?_)
  match a with
  | ⟨0, _⟩ => show win0_0.index t (0 : Fin 2) * 1024 + 1 * p.val = t.val * 1024 + p.val; rw [e0, Nat.one_mul]
  | ⟨1, _⟩ => show win0_0.index t (1 : Fin 2) * 768 + 1 * k.val = k.val; rw [e1, Nat.zero_mul, Nat.zero_add, Nat.one_mul]

theorem read_codeT (c : Dev nD) (t : Fin cfg0.N) (k : Fin 768) (q : Fin 1024) :
    codeTBlk m c t (ix2 k q) = codeTArr m c (ix2 k q) := by
  obtain ⟨-, -, e0, e1, -⟩ := band_facts t
  show V m c main_v7 (((cfg0.win 1).blk t).view.emb (ix2 k q)) = V m c main_v7 (ix2 k q)
  refine congrArg (V m c main_v7) (funext fun a => Fin.ext ?_)
  match a with
  | ⟨0, _⟩ => show win0_1.index t (0 : Fin 2) * 768 + 1 * k.val = k.val; rw [e0, Nat.zero_mul, Nat.zero_add, Nat.one_mul]
  | ⟨1, _⟩ => show win0_1.index t (1 : Fin 2) * 1024 + 1 * q.val = q.val; rw [e1, Nat.zero_mul, Nat.zero_add, Nat.one_mul]

theorem read_col (c : Dev nD) (t : Fin cfg0.N) (p : Fin 1024) :
    colBlk m c t (ix2 p (0 : Fin 1)) = colArr m c (ix2 (bandRow t p) (0 : Fin 1)) := by
  obtain ⟨-, -, -, -, e0, e1, -⟩ := band_facts t
  show V m c main_v3 (((cfg0.win 2).blk t).view.emb (ix2 p (0 : Fin 1))) = V m c main_v3 (ix2 (bandRow t p) (0 : Fin 1))
  refine congrArg (V m c main_v3) (funext fun a => Fin.ext ?_)
  match a with
  | ⟨0, _⟩ => show win0_2.index t (0 : Fin 2) * 1024 + 1 * p.val = t.val * 1024 + p.val; rw [e0, Nat.one_mul]
  | ⟨1, _⟩ => show win0_2.index t (1 : Fin 2) * 1 + 1 * 0 = 0; rw [e1]

theorem read_row (c : Dev nD) (t : Fin cfg0.N) (q : Fin 1024) :
    rowBlk m c t (ix2 (0 : Fin 1) q) = rowArr m c (ix2 (0 : Fin 1) q) := by
  obtain ⟨-, -, -, -, -, -, e0, e1, -⟩ := band_facts t
  show V m c main_v6 (((cfg0.win 3).blk t).view.emb (ix2 (0 : Fin 1) q)) = V m c main_v6 (ix2 (0 : Fin 1) q)
  refine congrArg (V m c main_v6) (funext fun a => Fin.ext ?_)
  match a with
  | ⟨0, _⟩ => show win0_3.index t (0 : Fin 2) * 1 + 1 * 0 = 0; rw [e0]
  | ⟨1, _⟩ => show win0_3.index t (1 : Fin 2) * 1024 + 1 * q.val = q.val; rw [e1, Nat.zero_mul, Nat.zero_add, Nat.one_mul]

/-- Where entry (p, q) of point t's result block lies in the array: row p of the band, column q. -/
theorem out_entry (t : Fin cfg0.N) (p q : Fin 1024) :
    ((cfg0.win 4).blk t).view.emb (ix2 p q) = (ix2 (bandRow t p) q : S16384x1024.Idx) := by
  obtain ⟨-, -, -, -, -, -, -, -, e0, e1⟩ := band_facts t
  refine funext fun a => Fin.ext ?_
  match a with
  | ⟨0, _⟩ => show win0_4.index t (0 : Fin 2) * 1024 + 1 * p.val = t.val * 1024 + p.val; rw [e0, Nat.one_mul]
  | ⟨1, _⟩ => show win0_4.index t (1 : Fin 2) * 1024 + 1 * q.val = q.val; rw [e1, Nat.zero_mul, Nat.zero_add, Nat.one_mul]

/-! ## What a point writes back -/

/-- Point t writes back the restriction of the region's result to its band. -/
theorem stored_eq (c : Dev nD) (t : Fin cfg0.N) :
    (dats m 0 c).flushed 4 t = ((cfg0.win 4).blk t).view.read (Elt Ideal)
      (regionSpec (rowsArr m c) (codeTArr m c) (colArr m c) (rowArr m c)) := by
  show (cfg0.win 4).cut (grid0.coords t) ((dats m 0 c).after 4 t) = _
  rw [after0_4]
  unfold out0_4
  rw [View.canon_unit_zero origin]
  simp only [View.ld_unit_zero (S := S1024x768) origin, View.ld_unit_zero (S := S768x1024) origin,
    View.ld_unit_zero (S := S1024x1) origin, View.ld_unit_zero (S := S1x1024) origin]
  funext j
  obtain ⟨p, q, rfl⟩ : ∃ (p q : Fin 1024), j = ix2 p q := ⟨j 0, j 1, eq_ix2 j⟩
  show k0_pay1 (F := Ideal) (rowsBlk m c t) (codeTBlk m c t) (colBlk m c t) (rowBlk m c t) (ix2 p q)
    = regionSpec (rowsArr m c) (codeTArr m c) (colArr m c) (rowArr m c) (((cfg0.win 4).blk t).view.emb (ix2 p q))
  rw [out_entry t p q, regionSpec_apply,
    stored_apply (rowsBlk m c t) (codeTBlk m c t) (colBlk m c t) (rowBlk m c t) p q, read_col, read_row]
  simp only [read_rows, read_codeT]

/-! ## The bands tile the rows -/

theorem mem_band (t : Fin cfg0.N) (i : S16384x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v8).slice (win0_4.rect t)).set ↔ _
  rw [View.set_slice_whole, Rect.mem_set_unit]
  exact Iff.rfl

/-- Every entry of the result lies in the band of the point its row divided by 1024 names. -/
theorem bands_cover (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 16 := N_0
  refine ⟨⟨(i 0).val / 1024, by rw [hN]; omega⟩, flush0_4 _, ?_⟩
  obtain ⟨-, -, -, -, -, -, -, -, e0, e1⟩ := band_facts ⟨(i 0).val / 1024, by rw [hN]; omega⟩
  rw [mem_band]
  intro a
  match a with
  | ⟨0, _⟩ =>
    show win0_4.index _ (0 : Fin 2) * 1024 ≤ (i 0).val ∧ (i 0).val < win0_4.index _ (0 : Fin 2) * 1024 + 1024
    rw [e0]
    show (i 0).val / 1024 * 1024 ≤ (i 0).val ∧ (i 0).val < (i 0).val / 1024 * 1024 + 1024
    omega
  | ⟨1, _⟩ =>
    show win0_4.index _ (1 : Fin 2) * 1024 ≤ (i 1).val ∧ (i 1).val < win0_4.index _ (1 : Fin 2) * 1024 + 1024
    rw [e1]
    omega

/-- The result array after the region. -/
theorem region_result (c : Dev nD) :
    (dats m 0 c).arrAt 4 cfg0.N = regionSpec (rowsArr m c) (codeTArr m c) (colArr m c) (rowArr m c) :=
  (dats m 0 c).arrAt_eq_of_cover 4 _ (fun t _ => stored_eq m c t) bands_cover

end Cert.KernelIdeal.Distance

end
-- ==== Proof.KernelHost.lean ====
/-
  The arrays the kernel's region is launched on, read at an entry.

  Before the region the host flattens the batch to rows, squares it and sums each row from the +0.0 word's value into a
  one-column matrix, does the same for the codebook into a one-row matrix, and transposes the codebook. At an entry:
  the column at (r, 0) is z + Σ_k X(r,k)², the row at (0, q) is z + Σ_k w(q,k)², and the transposed codebook at (k, q) is
  w(q, k).
-/
import proofs.«156373_j47107201302557_1_alg».proof.KernelIdeal
import proofs.«156373_j47107201302557_1_alg».proof.Proof.Spec
import Idealize.ShloMosaic.Lib.ValueLayout

noncomputable section

open scoped BigOperators
open Idealize.ShloMosaic Idealize.ShloMosaic.ValueIdx

namespace Cert.KernelIdeal.Distance

open Cert.KernelIdeal Cert.SqDist Facts₀

variable [Facts]

/-- The column of batch row sums at (r, 0): the initial value plus the sum of the row's squares. -/
theorem batchSums_apply (X : FVec Ideal S16384x768 .f32) (r : Fin 16384) :
    broadcastInDim S16384x1 ![0] bcast_S16384_S16384x1_0
        (Host.reduceAdd (mulf X X) (constant S_ .f32 0x00000000#32) reducesTo_S16384x768_S16384_d1 h_S_) (ix2 r (0 : Fin 1))
      = zeroW + ∑ k : Fin 768, X (ix2 r k) * X (ix2 r k) := by
  rw [broadcastInDim_apply _ bcast_S16384_S16384x1_0 _ (ix2 r (0 : Fin 1)) (ix1 r) (fun a => match a with
    | ⟨0, _⟩ => by show r.val = if (16384 : Nat) = 1 then 0 else r.val; rw [if_neg (by decide)])]
  simp only [Host.reduceAdd, Ideal.hostReduceAdd_def]
  rw [Ideal.hostReduceAdd_single reducesTo_S16384x768_S16384_d1 (by decide)]
  refine congrArg (_ + ·) (Finset.sum_congr rfl fun k _ => ?_)
  exact congrArg (mulf X X) (funext fun a => Fin.ext (by match a with | ⟨0, _⟩ => rfl | ⟨1, _⟩ => rfl))

/-- The row of codebook row sums at (0, q): the initial value plus the sum of codebook row q's squares. -/
theorem codeSums_apply (w : FVec Ideal S1024x768 .f32) (q : Fin 1024) :
    broadcastInDim S1x1024 ![1] bcast_S1024_S1x1024_1
        (Host.reduceAdd (mulf w w) (constant S_ .f32 0x00000000#32) reducesTo_S1024x768_S1024_d1 h_S_) (ix2 (0 : Fin 1) q)
      = zeroW + ∑ k : Fin 768, w (ix2 q k) * w (ix2 q k) := by
  rw [broadcastInDim_apply _ bcast_S1024_S1x1024_1 _ (ix2 (0 : Fin 1) q) (ix1 q) (fun a => match a with
    | ⟨0, _⟩ => by show q.val = if (1024 : Nat) = 1 then 0 else q.val; rw [if_neg (by decide)])]
  simp only [Host.reduceAdd, Ideal.hostReduceAdd_def]
  rw [Ideal.hostReduceAdd_single reducesTo_S1024x768_S1024_d1 (by decide)]
  refine congrArg (_ + ·) (Finset.sum_congr rfl fun k _ => ?_)
  exact congrArg (mulf w w) (funext fun a => Fin.ext (by match a with | ⟨0, _⟩ => rfl | ⟨1, _⟩ => rfl))

/-- The transposed codebook at (k, q): the codebook at (q, k). -/
theorem codeT_apply (w : FVec Ideal S1024x768 .f32) (k : Fin 768) (q : Fin 1024) :
    transpose S768x1024 [1, 0] w transposes_S1024x768_S768x1024_1_0 (ix2 k q) = w (ix2 q k) :=
  transpose_ix2_apply w transposes_S1024x768_S768x1024_1_0 k q

end Cert.KernelIdeal.Distance

end
-- ==== Proof.KernelRun.lean ====
/-
  The kernel program's run, with its first result named.

  The four arrays the region is launched on are what the host lines before it compute from the two arguments: the
  flattened batch, the transposed codebook, the column of the flattened batch's row sums and the row of the codebook's
  row sums. At them the region's result at (r, q) is the squared distance from flattened row r to codebook row q. The one
  host line after the region folds the rows back into [8, 2048, 1024], so the program's first result at (b, t, p) is the
  region's result at (b · 2048 + t, p): the squared distance from batch row (b, t) to codebook row p.
-/
import proofs.«156373_j47107201302557_1_alg».proof.Proof.KernelBlocks
import proofs.«156373_j47107201302557_1_alg».proof.Proof.KernelHost
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Distance

open Cert.KernelIdeal Cert.KernelIdeal.Gen Cert.SqDist

variable (m : (ℓ : Loc nD τ sig) → Buf (Elt Ideal) ℓ) (ρ : Dev nD → PrngReg)

/-- The two argument arrays as launched. -/
abbrev batch (c : Dev nD) : FVec Ideal S8x2048x768 .f32 := m ((c : Thread nD τ).loc main_arg0)
abbrev code (c : Dev nD) : FVec Ideal S1024x768 .f32 := m ((c : Thread nD τ).loc main_arg1)

/-- The flattened batch. -/
abbrev flatBatch (c : Dev nD) : FVec Ideal S16384x768 .f32 :=
  shapeCast S16384x768 (batch m c) shapeCasts_S8x2048x768_S16384x768

/-! ## The arrays the region finds -/

theorem rowsArr_eq (c : Dev nD) : rowsArr m c = flatBatch m c := by
  show StableHlo.after hostOps0 (fun b => m (c, b)) (Proc.devRef .tc main_v0) = _
  after_results
  rfl

theorem codeTArr_eq (c : Dev nD) :
    codeTArr m c = transpose S768x1024 [1, 0] (code m c) transposes_S1024x768_S768x1024_1_0 := by
  show StableHlo.after hostOps0 (fun b => m (c, b)) (Proc.devRef .tc main_v7) = _
  after_results

theorem colArr_eq (c : Dev nD) :
    colArr m c = broadcastInDim S16384x1 ![0] bcast_S16384_S16384x1_0
      (Host.reduceAdd (mulf (flatBatch m c) (flatBatch m c)) (constant S_ .f32 0x00000000#32) reducesTo_S16384x768_S16384_d1 h_S_) := by
  show StableHlo.after hostOps0 (fun b => m (c, b)) (Proc.devRef .tc main_v3) = _
  after_results
  rfl

theorem rowArr_eq (c : Dev nD) :
    rowArr m c = broadcastInDim S1x1024 ![1] bcast_S1024_S1x1024_1
      (Host.reduceAdd (mulf (code m c) (code m c)) (constant S_ .f32 0x00000000#32) reducesTo_S1024x768_S1024_d1 h_S_) := by
  show StableHlo.after hostOps0 (fun b => m (c, b)) (Proc.devRef .tc main_v6) = _
  after_results

/-- At those arrays the region's result at (r, q) is the squared distance from flattened row r to codebook row q. -/
theorem region_entry (c : Dev nD) (r : Fin 16384) (q : Fin 1024) :
    regionSpec (rowsArr m c) (codeTArr m c) (colArr m c) (rowArr m c) (ix2 r q) = flat (flatBatch m c) (code m c) r q := by
  rw [regionSpec_apply, colArr_eq, rowArr_eq, batchSums_apply, codeSums_apply, rowsArr_eq, codeTArr_eq]
  unfold flat
  refine congrArg (fun s => _ - twoW * s) (Finset.sum_congr rfl fun k _ => ?_)
  exact congrArg (flatBatch m c (ix2 r k) * ·) (codeT_apply (code m c) k q)

/-! ## The host line after the region -/

/-- The program's first result: the region's array folded back into the batch's shape. -/
theorem result_after (c : Dev nD) :
    Pipeline.afterTail₀ cfgs (dats m) 0 (V0 m) [hostOps1] c main_v9 = dist (batch m c) (code m c) := by
  have hregion : Pipeline.withArrays spec0 c (V0 m c) (fun w => (dats m 0 c).arrAt w cfg0.N) (Proc.devRef .tc main_v8)
      = regionSpec (rowsArr m c) (codeTArr m c) (colArr m c) (rowArr m c) :=
    (Pipeline.withArrays_arr spec0 launch0.win.arr_inj c _ _ 4).trans (region_result m c)
  unfold Pipeline.afterTail₀
  show StableHlo.after hostOps1 _ (Proc.devRef .tc main_v9) = _
  after_results
  funext i
  obtain ⟨b, t, p, rfl⟩ : ∃ (b : Fin 8) (t : Fin 2048) (p : Fin 1024), i = ix3 b t p := ⟨i 0, i 1, i 2, eq_ix3 i⟩
  show shapeCast S8x2048x1024
      (Pipeline.withArrays spec0 c (V0 m c) (fun w => (dats m 0 c).arrAt w cfg0.N) (Proc.devRef .tc main_v8))
      shapeCasts_S16384x1024_S8x2048x1024 (ix3 b t p) = _
  rw [hregion, unflatten_apply, region_entry, dist_apply]
  exact flat_flatten (batch m c) (code m c) _ b t p

/-! ## The run -/

/-- Every weakly fair execution of the idealized kernel program terminates with its first result the squared-distance
    array of its two arguments and the arguments as launched. -/
theorem run : θ_run defs (onTc (τ := τ) (main (F := Ideal))) ⟨m, fun _ => 0, ρ⟩ fun r => ∀ c : Dev nD,
      r.2.mem ((c : Thread nD τ).loc main_v9) = dist (batch m c) (code m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v9 (Pipeline.mem_restRefs_of main_v9 (by decide) (by decide))).trans (result_after m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Distance

end
-- ==== Proof.RefDistance.lean ====
/-
  The reference's result is the squared-distance function.

  The reference squares the batch and the codebook entrywise, sums each over the feature axis from the initial value of
  the +0.0 word, spreads the two sums over the result's shape, adds them, and subtracts the 2.0 word's value times the
  product of the batch with the codebook contracted over the feature axis. Read one operation at a time at the entry
  (b, t, p), every operand index is (b, t, k) on the batch side and (p, k) on the codebook side, so the entry is
  (z + Σ_k x(b,t,k)²) + (z + Σ_k w(p,k)²) − c · Σ_k x(b,t,k) · w(p,k).
-/
import proofs.«156373_j47107201302557_1_alg».proof.Defs
import proofs.«156373_j47107201302557_1_alg».proof.Proof.Gen.ReferenceIdeal.Run
import proofs.«156373_j47107201302557_1_alg».proof.Proof.Gen.ReferenceIdeal.Read
import proofs.«156373_j47107201302557_1_alg».proof.Proof.Spec

noncomputable section

open scoped BigOperators
open Idealize.ShloMosaic Idealize.ShloMosaic.ValueIdx

namespace Cert.ReferenceIdeal.Distance

open Cert.ReferenceIdeal Cert.ReferenceIdeal.Read Cert.SqDist

/-- The batch entry every stage of the first row sum reads: (b, t, k). -/
theorem batch_sq_idx (b : Fin 8) (t : Fin 2048) (p : Fin 1024) (k : Fin 768) :
    idx_main_v1 (idx_main_v2 (idx_main_v7 (ix3 b t p))) k = ix3 b t k :=
  funext fun a => Fin.ext (by match a with | ⟨0, _⟩ => rfl | ⟨1, _⟩ => rfl | ⟨2, _⟩ => rfl)

/-- The codebook entry every stage of the second row sum reads: (p, k). -/
theorem code_sq_idx (b : Fin 8) (t : Fin 2048) (p : Fin 1024) (k : Fin 768) :
    idx_main_v4 (idx_main_v6 (idx_main_v8 (ix3 b t p))) k = ix2 p k :=
  funext fun a => Fin.ext (by match a with | ⟨0, _⟩ => rfl | ⟨1, _⟩ => rfl)

/-- The contraction's left entry: (b, t, k). -/
theorem cross_lhs_idx (b : Fin 8) (t : Fin 2048) (p : Fin 1024) (k : Fin 768) :
    lidx_main_v5 (ix3 b t p) k = ix3 b t k :=
  funext fun a => Fin.ext (by match a with | ⟨0, _⟩ => rfl | ⟨1, _⟩ => rfl | ⟨2, _⟩ => rfl)

/-- The contraction's right entry: (p, k). -/
theorem cross_rhs_idx (b : Fin 8) (t : Fin 2048) (p : Fin 1024) (k : Fin 768) :
    ridx_main_v5 (ix3 b t p) k = ix2 p k :=
  funext fun a => Fin.ext (by match a with | ⟨0, _⟩ => rfl | ⟨1, _⟩ => rfl)

/-- The reference's last stage is the squared-distance function of its two arguments. -/
theorem result_eq (x : FVec Ideal S8x2048x768 .f32) (w : FVec Ideal S1024x768 .f32) :
    val_main_v12 (F := Ideal) x w = dist x w := by
  funext i
  obtain ⟨b, t, p, rfl⟩ : ∃ (b : Fin 8) (t : Fin 2048) (p : Fin 1024), i = ix3 b t p := ⟨i 0, i 1, i 2, eq_ix3 i⟩
  rw [dist_apply]
  unfold cube
  rw [val_main_v12_apply, val_main_v9_apply, val_main_v11_apply, val_main_v7_apply, val_main_v2_apply, val_main_v1_apply,
    val_main_v8_apply, val_main_v6_apply, val_main_v4_apply, val_main_v10_apply, val_main_cst_1_apply, val_main_v5_apply]
  simp only [val_main_v0_apply, val_main_v3_apply, val_main_cst_apply, val_main_cst_0_apply, batch_sq_idx, code_sq_idx,
    cross_lhs_idx, cross_rhs_idx, Ideal.ofBits_def, Ideal.mulf_def, Ideal.addf_def, Ideal.subf_def]

end Cert.ReferenceIdeal.Distance

end
-- ==== Proof.lean ====
/-
  Squared distances to a codebook: the kernel program against its reference, over the extended reals.

  Both programs return, for a batch x [8, 2048, 768] and a codebook w [1024, 768], the array

      D(b, t, p) = (z + Σ_k x(b,t,k)²) + (z + Σ_k w(p,k)²) − c · Σ_k x(b,t,k) · w(p,k)

  and the codebook itself, where z and c are the values of the words of +0.0 and 2.0 that both programs carry.
  The reference computes D directly. The kernel program flattens the batch to 16384 rows, computes the two families of row
  sums and the transposed codebook on the host, forms (row sums + codebook sums) − 2 · (rows × transposed codebook) in
  16 bands of 1024 rows, and folds the rows back; at the ideal values the narrowing of the product's operands is the
  identity and the product into a zero accumulator is the plain sum, so its first result is D as well. No algebraic law
  beyond re-indexing the sums is used, so the finiteness of the inputs is never opened.
  The idealized kernel is the kernel's own text read at the ideal values: the idealization rewrote nothing.
-/
import proofs.«156373_j47107201302557_1_alg».proof.Defs
import proofs.«156373_j47107201302557_1_alg».proof.Proof.Gen.Kernel
import proofs.«156373_j47107201302557_1_alg».proof.Proof.Gen.Kernel.Frame
import proofs.«156373_j47107201302557_1_alg».proof.Proof.Gen.KernelIdeal
import proofs.«156373_j47107201302557_1_alg».proof.Proof.Gen.KernelIdeal.Frame
import proofs.«156373_j47107201302557_1_alg».proof.Proof.Gen.ReferenceIdeal
import proofs.«156373_j47107201302557_1_alg».proof.Proof.Gen.ReferenceIdeal.Run
import proofs.«156373_j47107201302557_1_alg».proof.Proof.Gen.ReferenceIdeal.Read
import proofs.«156373_j47107201302557_1_alg».proof.Proof.Gen.Pre_finite_inputs
import proofs.«156373_j47107201302557_1_alg».proof.Proof.KernelRun
import proofs.«156373_j47107201302557_1_alg».proof.Proof.RefDistance

noncomputable section

namespace Cert.Proof

open Idealize.ShloMosaic Idealize.ShloMosaic.TcCoe Idealize.SL.Sem

/-- The kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote no operation. -/
theorem preserves : Cert.preserves_Kernel_KernelIdeal := trivial

/-- Both programs end with the squared-distance array of the shared arguments and with the codebook. -/
theorem algebraic : Cert.algebraic_KernelIdeal_ReferenceIdeal := by
  intro m ρ m' ρ' _ hagree
  refine ⟨fun c => Cert.SqDist.dist (Cert.KernelIdeal.Distance.batch m c) (Cert.KernelIdeal.Distance.code m c),
    fun c => Cert.KernelIdeal.Distance.code m c, ?_, ?_⟩
  · exact (θ_run Cert.KernelIdeal.defs _ _).mono (fun _ h c => ⟨(h c).1, (h c).2.2, (h c).2.1, (h c).2.2⟩)
      (Cert.KernelIdeal.Distance.run m ρ)
  · refine (θ_run Cert.ReferenceIdeal.defs _ _).mono (fun _ h c => ⟨?_, ?_, (h c).2.2.1, (h c).2.2.2⟩)
      (Cert.ReferenceIdeal.Value.run (F := Ideal) m' ρ')
    · rw [(h c).1, Cert.ReferenceIdeal.Read.val_main_v12_eq, Cert.ReferenceIdeal.Distance.result_eq, (hagree c).1, (hagree c).2]
    · rw [(h c).2.1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
